-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x64 .f32) (main_arg3 : FVec F S64 .f32) (main_arg4 : FVec F S64x32 .f32) (main_arg5 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S1600000x32 : Shape := ⟨2, ![1600000, 32]⟩
abbrev S1x32 : Shape := ⟨2, ![1, 32]⟩

abbrev nBuf : Space → Nat
  | .hbm => 112
  | .vmem => 10
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x32, .f32⟩
  | .hbm, ⟨77, _⟩ => ⟨S1600000x1, .f32⟩
  | .hbm, ⟨78, _⟩ => ⟨S1600000x32, .f32⟩
  | .hbm, ⟨79, _⟩ => ⟨S1600000x32, .f32⟩
  | .hbm, ⟨80, _⟩ => ⟨S_, .f32⟩
  | .hbm, ⟨81, _⟩ => ⟨S100000x32, .f32⟩
  | .hbm, ⟨82, _⟩ => ⟨S1600000x1, .i32⟩
  | .hbm, ⟨83, _⟩ => ⟨S100000x32, .f32⟩
  | .hbm, ⟨84, _⟩ => ⟨S100000x1, .f32⟩
  | .hbm, ⟨85, _⟩ => ⟨S100000x32, .f32⟩
  | .hbm, ⟨86, _⟩ => ⟨S100000x32, .f32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x32, .f32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x32, .f32⟩
  | .hbm, ⟨109, _⟩ => ⟨S1600000x32, .f32⟩
  | .hbm, ⟨110, _⟩ => ⟨S_, .f32⟩
  | .hbm, ⟨111, _⟩ => ⟨S1600000, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_11 : Ref sig .tc := ⟨.hbm, 91, rfl⟩
abbrev main_v70 : Ref sig .tc := ⟨.hbm, 92, rfl⟩
abbrev main_v71 : Ref sig .tc := ⟨.hbm, 93, rfl⟩
abbrev main_c_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_13 : Ref sig .tc := ⟨.hbm, 100, rfl⟩
abbrev main_v77 : Ref sig .tc := ⟨.hbm, 101, rfl⟩
abbrev main_v78 : Ref sig .tc := ⟨.hbm, 102, rfl⟩
abbrev main_c_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S1600000x32_S1600000_d1 : S1600000x32.ReducesTo [1] S1600000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1600000x32 : Shape := ⟨2, ![1600000, 32]⟩
abbrev S1x32 : Shape := ⟨2, ![1, 32]⟩

abbrev nBuf : Space → Nat
  | .hbm => 142
  | .vmem => 0
  | .smem => 0
  | _ => 0

abbrev hbmTy0_0 (i : Nat) : BufTy := match i % 128 with
  | 0 => ⟨S100000x32, .f32⟩
  | 1 => ⟨S2x1600000, .i32⟩
  | 2 => ⟨S32x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x1, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x32, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x32, .f32⟩
  | 106 => ⟨S1600000x1, .f32⟩
  | 107 => ⟨S1600000x32, .f32⟩
  | 108 => ⟨S1600000x32, .f32⟩
  | 109 => ⟨S_, .f32⟩
  | 110 => ⟨S100000x32, .f32⟩
  | 111 => ⟨S1600000x1, .i32⟩
  | 112 => ⟨S100000x32, .f32⟩
  | 113 => ⟨S100000, .f32⟩
  | 114 => ⟨S100000x1, .f32⟩
  | 115 => ⟨S100000x32, .f32⟩
  | 116 => ⟨S100000x32, .f32⟩
  | 117 => ⟨S100000x32, .f32⟩
  | 118 => ⟨S1x32, .f32⟩
  | 119 => ⟨S100000x32, .f32⟩
  | 120 => ⟨S100000x32, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x32, .f32⟩

abbrev hbmTy0_1 (i : Nat) : BufTy := match i % 128 with
  | 0 => ⟨S1600000x1, .i32⟩
  | 1 => ⟨S1600000x32, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x32, .f32⟩
  | 11 => ⟨S1600000x32, .f32⟩
  | 12 => ⟨S_, .f32⟩
  | 13 => ⟨S1600000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_18 : Ref sig .tc := ⟨.hbm, 121, rfl⟩
abbrev main_v93 : Ref sig .tc := ⟨.hbm, 122, rfl⟩
abbrev main_v94 : Ref sig .tc := ⟨.hbm, 123, rfl⟩
abbrev main_c_19 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_20 : Ref sig .tc := ⟨.hbm, 130, rfl⟩
abbrev main_v100 : Ref sig .tc := ⟨.hbm, 131, rfl⟩
abbrev main_v101 : Ref sig .tc := ⟨.hbm, 132, rfl⟩
abbrev main_c_21 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_22 : Ref sig .tc := ⟨.hbm, 140, rfl⟩
abbrev main_v108 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S1600000x32_S1600000_d1 : S1600000x32.ReducesTo [1] S1600000
  h_S_ : 0 < S_.numel
  dot_S100000x32_S32x64_S100000x64_1_0_0_1_n_n_wf : DotDims.WF S100000x32 S32x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.PlainProduct.lean ====
/-
  Two readings of a plain matrix product over the extended reals, entry by entry.

  A kernel multiplies a block of rows by a whole matrix: both operands are first narrowed to bf16 — on the
  extended reals a change of float format is the identity — and the product is accumulated into zero, so
  entry (a, b) is the bare sum over the contracted coordinate c of x(a, c) · w(c, b).  The host's
  `dot_general` with the same (plain) dimension numbers is the same sum.  Hence a row block of the host's
  product of the whole array is the kernel's product of that row block.
-/
import Idealize.ShloMosaic.PureOps.Ideal.Laws
import Idealize.ShloMosaic.Lib.ValueIdx
import Idealize.ShloMosaic.Lib.StackMember

noncomputable section

namespace Cert.PlainProduct

open Idealize.ShloMosaic Idealize.ShloMosaic.ValueIdx

/-- The kernel's product of a `B × K` block by a `K × N` matrix, operands narrowed to bf16, accumulated into zero:
    entry `(a, b)` is `∑ c, x (a, c) · w (c, b)`. -/
theorem narrowed_matmul_apply {B K N : Nat} (d : DotDims ⟨2, ![B, K]⟩ ⟨2, ![K, N]⟩ ⟨2, ![B, N]⟩)
    (hd : d = DotDims.plain B K N) (x : FVec Ideal ⟨2, ![B, K]⟩ .f32) (w : FVec Ideal ⟨2, ![K, N]⟩ .f32)
    (h1 : FTy.bits .bf16 < FTy.bits .f32) (h2 : FTy.bits .bf16 < FTy.bits .f32) (a : Fin B) (b : Fin N) :
    matmul d none (truncf .bf16 x h1) (truncf .bf16 w h2) (constant (F := Ideal) ⟨2, ![B, N]⟩ .f32 0x00000000#32) (ix2 a b)
      = ∑ c : Fin K, x (ix2 a c) * w (ix2 c b) := by
  subst hd
  show FloatOps.matmul _ none _ _ _ (ix2 a b) = _
  rw [Ideal.matmul_constant_zero_apply, ← Ideal.dotGeneral_apply (DotDims.plain B K N) none .single]
  exact StackMember.dotGeneral_plain_apply none (truncf .bf16 x h1) (truncf .bf16 w h2) a b

/-- The host's plain product of an `M × K` by a `K × N` matrix: entry `(a, b)` is `∑ c, x (a, c) · w (c, b)`. -/
theorem host_product_apply {M K N : Nat} (d : DotDims ⟨2, ![M, K]⟩ ⟨2, ![K, N]⟩ ⟨2, ![M, N]⟩)
    (hd : d = DotDims.plain M K N) (x : FVec Ideal ⟨2, ![M, K]⟩ .f32) (w : FVec Ideal ⟨2, ![K, N]⟩ .f32)
    (a : Fin M) (b : Fin N) :
    Host.dotGeneral d none x w (ix2 a b) = ∑ c : Fin K, x (ix2 a c) * w (ix2 c b) := by
  subst hd
  exact StackMember.dotGeneral_plain_apply none x w a b

end Cert.PlainProduct

end
-- ==== Proof.SecondProduct.lean ====
/-
  The second pallas_call of the kernel: h' = h1 · W2, again twenty row blocks at a time.

  Grid point `t` loads rows 5000 t … 5000 t + 4999 of h1 (window 0, 64 columns) and the whole 64 × 32 weight matrix
  (window 1); the body casts the loaded block to its own shape (the identity), narrows both operands to bf16 (the
  identity on the extended reals), multiplies into a zero accumulator and writes the 5000 × 32 result back as row block
  `t` of the output (window 2).  Entry (a, b) of that block is `∑ k, h1 (5000 t + a, k) · W2 (k, b)`: entry
  (5000 t + a, b) of the host's product of the whole arrays.  The blocks tile the output, so after the region the
  output array IS the host's product of the two input arrays as the region found them, at any entry contents `V`.
-/
import proofs.«419534_j38208029065712_3_alg».proof.Proof.Gen.KernelIdeal.Frame
import proofs.«419534_j38208029065712_3_alg».proof.Proof.PlainProduct
import Idealize.ShloMosaic.Lib.Pipeline.Value
import Idealize.ShloMosaic.Lib.ValueIdx

set_option maxRecDepth 16384

noncomputable section

namespace Cert.KernelIdeal.SecondProduct

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the twenty grid points: the h1 window and the output window are at row block `t`,
    column block 0; the weight window stays at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The kernel's dimension numbers are the plain ones of a 5000 × 64 by 64 × 32 product. -/
theorem dims_plain : dot_S5000x64_S64x32_S5000x32_1_0_0_1_n_n = DotDims.plain 5000 64 32 := rfl

/-- One grid point's result at entry `(a, b)` of its block: `∑ k, h (a, k) · w (k, b)` over the loaded blocks (the
    cast of the loaded block to its own shape changes nothing). -/
theorem block_entry (x0 : Vec Ideal S5000x64 .f32) (x1 : Vec Ideal S64x32 .f32) (a : Fin 5000) (b : Fin 32) :
    k1_pay1 x0 x1 (ix2 a b) = ∑ k : Fin 64, x0 (ix2 a k) * x1 (ix2 k b) := by
  unfold k1_pay1
  rw [shapeCast_self]
  exact Cert.PlainProduct.narrowed_matmul_apply _ dims_plain x0 x1 _ _ a b

/-- The two arrays the region finds at its input windows, at their literal types. -/
abbrev harr (c : Dev nD) : FVec Ideal S100000x64 .f32 := V c main_v48
abbrev warr (c : Dev nD) : FVec Ideal S64x32 .f32 := V c main_arg4

/-- The host's product of those two whole arrays. -/
abbrev product (c : Dev nD) : FVec Ideal S100000x32 .f32 :=
  Host.dotGeneral (DotDims.plain 100000 64 32) none (harr V c) (warr V c)

/-- WHAT POINT `t` WRITES BACK is block `t` of the whole product: row `a` of the block is row `5000 t + a` of h1, and
    the weight block is the whole weight matrix. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S5000x64) origin, View.ld_unit_zero (S := S64x32) origin]
  funext j
  obtain ⟨a, b, rfl⟩ : ∃ (a : Fin 5000) (b : Fin 32), j = ix2 a b := ⟨j 0, j 1, eq_ix2 j⟩
  obtain ⟨e00, e01, e10, e11, e20, e21⟩ := block_indices t
  have ht : t.val < 20 := t.isLt
  have hrow : t.val * 5000 + a.val < 100000 := by have := a.isLt; omega
  have hemb2 : ((cfg1.win 2).blk t).view.emb (ix2 a b) = ix2 (⟨t.val * 5000 + a.val, hrow⟩ : Fin 100000) b := by
    funext d; apply Fin.ext
    match d with
    | ⟨0, _⟩ => show win1_2.index t (0 : Fin 2) * 5000 + 1 * a.val = t.val * 5000 + a.val; omega
    | ⟨1, _⟩ => show win1_2.index t (1 : Fin 2) * 32 + 1 * b.val = b.val; omega
  have hemb0 : ∀ k : Fin 64, ((cfg1.win 0).blk t).view.emb (ix2 a k) = ix2 (⟨t.val * 5000 + a.val, hrow⟩ : Fin 100000) k := fun k => by
    funext d; apply Fin.ext
    match d with
    | ⟨0, _⟩ => show win1_0.index t (0 : Fin 2) * 5000 + 1 * a.val = t.val * 5000 + a.val; omega
    | ⟨1, _⟩ => show win1_0.index t (1 : Fin 2) * 64 + 1 * k.val = k.val; omega
  have hemb1 : ∀ k : Fin 64, ((cfg1.win 1).blk t).view.emb (ix2 k b) = ix2 k b := fun k => by
    funext d; apply Fin.ext
    match d with
    | ⟨0, _⟩ => show win1_1.index t (0 : Fin 2) * 64 + 1 * k.val = k.val; omega
    | ⟨1, _⟩ => show win1_1.index t (1 : Fin 2) * 32 + 1 * b.val = b.val; omega
  show k1_pay1 (iblk1 V c 0 t) (iblk1 V c 1 t) (ix2 a b) = product V c (((cfg1.win 2).blk t).view.emb (ix2 a b))
  rw [hemb2]
  refine (block_entry (iblk1 V c 0 t) (iblk1 V c 1 t) a b).trans ?_
  refine Eq.trans ?_ (Cert.PlainProduct.host_product_apply (DotDims.plain 100000 64 32) rfl (harr V c) (warr V c) _ b).symm
  refine Finset.sum_congr rfl fun k _ => ?_
  show harr V c (((cfg1.win 0).blk t).view.emb (ix2 a k)) * warr V c (((cfg1.win 1).blk t).view.emb (ix2 k b)) = _
  rw [hemb0, hemb1]

/-- An index of the output array lies in point `t`'s block iff each coordinate lies in the block's range on its axis. -/
theorem mem_block (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v49).slice (win1_2.rect t)).set ↔ _
  rw [View.set_slice_whole, Rect.mem_set_unit]
  exact Iff.rfl

/-- The twenty row blocks tile the output array: row `r` lies in the block of point `r / 5000`. -/
theorem covered (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hq : (i 0).val / 5000 < cfg1.N := by rw [show cfg1.N = 20 from N_1]; omega
  refine ⟨⟨(i 0).val / 5000, hq⟩, flush1_2 _, ?_⟩
  rw [mem_block]
  obtain ⟨_, _, _, _, e20, e21⟩ := block_indices ⟨(i 0).val / 5000, hq⟩
  intro a
  match a with
  | ⟨0, _⟩ =>
    show win1_2.index ⟨(i 0).val / 5000, hq⟩ (0 : Fin 2) * 5000 ≤ (i 0).val ∧ (i 0).val < win1_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hq⟩ (1 : Fin 2) * 32 ≤ (i 1).val ∧ (i 1).val < win1_2.index ⟨(i 0).val / 5000, hq⟩ (1 : Fin 2) * 32 + 32
    rw [e21]; omega

/-- THE OUTPUT ARRAY after the region: the host's product of the two input arrays as the region found them. -/
theorem array_eq (c : Dev nD) : (dat1 V c).arrAt 2 cfg1.N = product V c :=
  (dat1 V c).arrAt_eq_of_cover 2 (product V c) (fun t _ => flushed_eq V c t) covered

end Cert.KernelIdeal.SecondProduct

end
-- ==== Proof.FirstProduct.lean ====
/-
  The first pallas_call of the kernel: h = x · W1, computed twenty row blocks at a time.

  Grid point `t` loads rows 5000 t … 5000 t + 4999 of x (window 0) and the whole 32 × 64 weight matrix (window 1),
  multiplies them — operands narrowed to bf16, which on the extended reals is the identity, into a zero
  accumulator — and writes the 5000 × 64 result back as row block `t` of the output (window 2).  Entry (a, b) of that
  block is `∑ k, x (5000 t + a, k) · W1 (k, b)`, which is entry (5000 t + a, b) of the host's product of the whole
  arrays; the twenty blocks tile the output, so after the region the output array IS the host's product of the two
  input arrays as the region found them.  Stated at any entry contents `V` of the region.
-/
import proofs.«419534_j38208029065712_3_alg».proof.Proof.Gen.KernelIdeal.Frame
import proofs.«419534_j38208029065712_3_alg».proof.Proof.PlainProduct
import Idealize.ShloMosaic.Lib.Pipeline.Value
import Idealize.ShloMosaic.Lib.ValueIdx

set_option maxRecDepth 16384

noncomputable section

namespace Cert.KernelIdeal.FirstProduct

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the twenty grid points: the x window and the output window are at row block `t`,
    column block 0; the weight window stays at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The kernel's dimension numbers are the plain ones of a 5000 × 32 by 32 × 64 product. -/
theorem dims_plain : dot_S5000x32_S32x64_S5000x64_1_0_0_1_n_n = DotDims.plain 5000 32 64 := rfl

/-- One grid point's result at entry `(a, b)` of its block: `∑ k, x (a, k) · w (k, b)` over the loaded blocks. -/
theorem block_entry (x0 : Vec Ideal S5000x32 .f32) (x1 : Vec Ideal S32x64 .f32) (a : Fin 5000) (b : Fin 64) :
    k0_pay1 x0 x1 (ix2 a b) = ∑ k : Fin 32, x0 (ix2 a k) * x1 (ix2 k b) := by
  unfold k0_pay1
  exact Cert.PlainProduct.narrowed_matmul_apply _ dims_plain x0 x1 _ _ a b

/-- The two arrays the region finds at its input windows, at their literal types. -/
abbrev xarr (c : Dev nD) : FVec Ideal S100000x32 .f32 := V c main_arg0
abbrev warr (c : Dev nD) : FVec Ideal S32x64 .f32 := V c main_arg2

/-- The host's product of those two whole arrays. -/
abbrev product (c : Dev nD) : FVec Ideal S100000x64 .f32 :=
  Host.dotGeneral (DotDims.plain 100000 32 64) none (xarr V c) (warr V c)

/-- WHAT POINT `t` WRITES BACK is block `t` of the whole product: row `a` of the block is row `5000 t + a` of x, and
    the weight block is the whole weight matrix. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S5000x32) origin, View.ld_unit_zero (S := S32x64) origin]
  funext j
  obtain ⟨a, b, rfl⟩ : ∃ (a : Fin 5000) (b : Fin 64), j = ix2 a b := ⟨j 0, j 1, eq_ix2 j⟩
  obtain ⟨e00, e01, e10, e11, e20, e21⟩ := block_indices t
  have ht : t.val < 20 := t.isLt
  have hrow : t.val * 5000 + a.val < 100000 := by have := a.isLt; omega
  have hemb2 : ((cfg0.win 2).blk t).view.emb (ix2 a b) = ix2 (⟨t.val * 5000 + a.val, hrow⟩ : Fin 100000) b := by
    funext d; apply Fin.ext
    match d with
    | ⟨0, _⟩ => show win0_2.index t (0 : Fin 2) * 5000 + 1 * a.val = t.val * 5000 + a.val; omega
    | ⟨1, _⟩ => show win0_2.index t (1 : Fin 2) * 64 + 1 * b.val = b.val; omega
  have hemb0 : ∀ k : Fin 32, ((cfg0.win 0).blk t).view.emb (ix2 a k) = ix2 (⟨t.val * 5000 + a.val, hrow⟩ : Fin 100000) k := fun k => by
    funext d; apply Fin.ext
    match d with
    | ⟨0, _⟩ => show win0_0.index t (0 : Fin 2) * 5000 + 1 * a.val = t.val * 5000 + a.val; omega
    | ⟨1, _⟩ => show win0_0.index t (1 : Fin 2) * 32 + 1 * k.val = k.val; omega
  have hemb1 : ∀ k : Fin 32, ((cfg0.win 1).blk t).view.emb (ix2 k b) = ix2 k b := fun k => by
    funext d; apply Fin.ext
    match d with
    | ⟨0, _⟩ => show win0_1.index t (0 : Fin 2) * 32 + 1 * k.val = k.val; omega
    | ⟨1, _⟩ => show win0_1.index t (1 : Fin 2) * 64 + 1 * b.val = b.val; omega
  show k0_pay1 (iblk0 V c 0 t) (iblk0 V c 1 t) (ix2 a b) = product V c (((cfg0.win 2).blk t).view.emb (ix2 a b))
  rw [hemb2]
  refine (block_entry (iblk0 V c 0 t) (iblk0 V c 1 t) a b).trans ?_
  refine Eq.trans ?_ (Cert.PlainProduct.host_product_apply (DotDims.plain 100000 32 64) rfl (xarr V c) (warr V c) _ b).symm
  refine Finset.sum_congr rfl fun k _ => ?_
  show xarr V c (((cfg0.win 0).blk t).view.emb (ix2 a k)) * warr V c (((cfg0.win 1).blk t).view.emb (ix2 k b)) = _
  rw [hemb0, hemb1]

/-- An index of the output array lies in point `t`'s block iff each coordinate lies in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- The twenty row blocks tile the output array: row `r` lies in the block of point `r / 5000`. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hq : (i 0).val / 5000 < cfg0.N := by rw [show cfg0.N = 20 from N_0]; omega
  refine ⟨⟨(i 0).val / 5000, hq⟩, flush0_2 _, ?_⟩
  rw [mem_block]
  obtain ⟨_, _, _, _, e20, e21⟩ := block_indices ⟨(i 0).val / 5000, hq⟩
  intro a
  match a with
  | ⟨0, _⟩ =>
    show win0_2.index ⟨(i 0).val / 5000, hq⟩ (0 : Fin 2) * 5000 ≤ (i 0).val ∧ (i 0).val < win0_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hq⟩ (1 : Fin 2) * 64 ≤ (i 1).val ∧ (i 1).val < win0_2.index ⟨(i 0).val / 5000, hq⟩ (1 : Fin 2) * 64 + 64
    rw [e21]; omega

/-- THE OUTPUT ARRAY after the region: the host's product of the two input arrays as the region found them. -/
theorem array_eq (c : Dev nD) : (dat0 V c).arrAt 2 cfg0.N = product V c :=
  (dat0 V c).arrAt_eq_of_cover 2 (product V c) (fun t _ => flushed_eq V c t) covered

end Cert.KernelIdeal.FirstProduct

end
-- ==== Proof.Stretch0.lean ====
/-
  The host operations before the first pallas_call, read at the buffers later segments use.

  From the edge list they compute the source and destination node of every edge, the in-degree of every node plus
  one (a scatter-add of ones), its inverse square root, the symmetric edge weights
  deg(src)^(-1/2) · deg(dst)^(-1/2) and the self-loop weights 1 / deg.  The reference computes the same values with
  the same operations, so each buffer holds the reference's stage of that name; the argument arrays are not written.
-/
import proofs.«419534_j38208029065712_3_alg».proof.Proof.Gen.KernelIdeal.Frame
import proofs.«419534_j38208029065712_3_alg».proof.Proof.Gen.ReferenceIdeal.Read
import Idealize.ShloMosaic.Lib.StableHlo.Run

set_option maxRecDepth 16384

noncomputable section

namespace Cert.KernelIdeal.Stretch0

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (ρ : Dev nD → PrngReg) (c : Dev nD)

/-- At the first region's entry: the source node of every edge, row 0 of the edge list. -/
theorem src_eq : W1 m ρ c (Proc.devRef .tc main_v1)
    = Cert.ReferenceIdeal.Read.val_main_v1 (F := Ideal) (m ((c.tc : Thread nD τ).loc main_arg1)) := by
  show StableHlo.after hostOps0 (W0 m ρ c) (Proc.devRef .tc main_v1) = _
  after_results_simp
  rfl

/-- The destination node of every edge, row 1 of the edge list. -/
theorem dst_eq : W1 m ρ c (Proc.devRef .tc main_v3)
    = Cert.ReferenceIdeal.Read.val_main_v3 (F := Ideal) (m ((c.tc : Thread nD τ).loc main_arg1)) := by
  show StableHlo.after hostOps0 (W0 m ρ c) (Proc.devRef .tc main_v3) = _
  after_results_simp
  rfl

/-- The edge weights deg(src)^(-1/2) · deg(dst)^(-1/2), deg the in-degree plus one. -/
theorem norm_eq : W1 m ρ c (Proc.devRef .tc main_v25)
    = Cert.ReferenceIdeal.Read.val_main_v26 (F := Ideal) (m ((c.tc : Thread nD τ).loc main_arg1)) := by
  show StableHlo.after hostOps0 (W0 m ρ c) (Proc.devRef .tc main_v25) = _
  after_results_simp
  rfl

/-- The self-loop weights 1 / deg. -/
theorem selfw_eq : W1 m ρ c (Proc.devRef .tc main_v26)
    = Cert.ReferenceIdeal.Read.val_main_v40 (F := Ideal) (m ((c.tc : Thread nD τ).loc main_arg1)) := by
  show StableHlo.after hostOps0 (W0 m ρ c) (Proc.devRef .tc main_v26) = _
  after_results_simp
  rfl

/-- The node features are not written. -/
theorem x_eq : W1 m ρ c (Proc.devRef .tc main_arg0) = m ((c.tc : Thread nD τ).loc main_arg0) := by
  show StableHlo.after hostOps0 (W0 m ρ c) (Proc.devRef .tc main_arg0) = _
  after_results_simp

/-- The first weight matrix is not written. -/
theorem w1_eq : W1 m ρ c (Proc.devRef .tc main_arg2) = m ((c.tc : Thread nD τ).loc main_arg2) := by
  show StableHlo.after hostOps0 (W0 m ρ c) (Proc.devRef .tc main_arg2) = _
  after_results_simp

/-- The first bias is not written. -/
theorem b1_eq : W1 m ρ c (Proc.devRef .tc main_arg3) = m ((c.tc : Thread nD τ).loc main_arg3) := by
  show StableHlo.after hostOps0 (W0 m ρ c) (Proc.devRef .tc main_arg3) = _
  after_results_simp

/-- The second weight matrix is not written. -/
theorem w2_eq : W1 m ρ c (Proc.devRef .tc main_arg4) = m ((c.tc : Thread nD τ).loc main_arg4) := by
  show StableHlo.after hostOps0 (W0 m ρ c) (Proc.devRef .tc main_arg4) = _
  after_results_simp

/-- The second bias is not written. -/
theorem b2_eq : W1 m ρ c (Proc.devRef .tc main_arg5) = m ((c.tc : Thread nD τ).loc main_arg5) := by
  show StableHlo.after hostOps0 (W0 m ρ c) (Proc.devRef .tc main_arg5) = _
  after_results_simp

end Cert.KernelIdeal.Stretch0

end
-- ==== Proof.Stretch1.lean ====
/-
  From the first pallas_call's exit to the second one's entry.

  The first region leaves its output array at the host's product x · W1 (the reference's first `dot_general`) and
  every other buffer as it was.  The host operations that follow gather the product's rows at the source nodes,
  weight them, scatter-add them at the destination nodes, add the self-loop term and the bias — the reference's
  first graph convolution, operation for operation — and the called function clamps the result below at zero.  So
  the second region's input holds the reference's hidden layer; the edge data and the remaining arguments pass
  through both stretches unchanged.
-/
import proofs.«419534_j38208029065712_3_alg».proof.Proof.Gen.KernelIdeal.Frame
import proofs.«419534_j38208029065712_3_alg».proof.Proof.Gen.ReferenceIdeal.Read
import proofs.«419534_j38208029065712_3_alg».proof.Proof.FirstProduct
import proofs.«419534_j38208029065712_3_alg».proof.Proof.Stretch0
import Idealize.ShloMosaic.Lib.StableHlo.Run

set_option maxRecDepth 16384

noncomputable section

namespace Cert.KernelIdeal.Stretch1

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (ρ : Dev nD → PrngReg) (c : Dev nD)

/-- Device `c`'s argument arrays at launch: node features, edge list, the two weight matrices and the two biases. -/
abbrev feat := m ((c.tc : Thread nD τ).loc main_arg0)
abbrev edges := m ((c.tc : Thread nD τ).loc main_arg1)
abbrev wt1 := m ((c.tc : Thread nD τ).loc main_arg2)
abbrev bias1 := m ((c.tc : Thread nD τ).loc main_arg3)
abbrev wt2 := m ((c.tc : Thread nD τ).loc main_arg4)
abbrev bias2 := m ((c.tc : Thread nD τ).loc main_arg5)

/-- The first region's output array: the host's product of the node features by the first weight matrix. -/
theorem product1_eq : W2 m ρ c (Proc.devRef .tc main_v27)
    = Cert.ReferenceIdeal.Read.val_main_v4 (F := Ideal) (feat m c) (wt1 m c) := by
  refine (W2_arr m ρ c 2).trans ((Cert.KernelIdeal.FirstProduct.array_eq (V1 m ρ) c).trans ?_)
  have hx : Cert.KernelIdeal.FirstProduct.xarr (V1 m ρ) c = feat m c := Stretch0.x_eq m ρ c
  have hw : Cert.KernelIdeal.FirstProduct.warr (V1 m ρ) c = wt1 m c := Stretch0.w1_eq m ρ c
  unfold Cert.KernelIdeal.FirstProduct.product
  rw [hx, hw]
  rfl

/-- The first graph convolution before its clamp.  The host operations after the first region — gather the product's
    rows at the sources, weight, scatter-add at the destinations, self-loop term, bias — are the reference's, over the
    product, the edge data and the bias. -/
theorem conv1_eq : W3 m ρ c (Proc.devRef .tc main_v47)
    = Cert.ReferenceIdeal.Read.val_main_v47 (F := Ideal) (feat m c) (edges m c) (wt1 m c) (bias1 m c) := by
  show StableHlo.after hostOps1 (W2 m ρ c) (Proc.devRef .tc main_v47) = _
  after_results_simp
  rw [product1_eq, W2_of_ne m ρ c main_v1 (by decide), W2_of_ne m ρ c main_v3 (by decide),
    W2_of_ne m ρ c main_v25 (by decide), W2_of_ne m ρ c main_v26 (by decide), W2_of_ne m ρ c main_arg3 (by decide),
    Stretch0.src_eq, Stretch0.dst_eq, Stretch0.norm_eq, Stretch0.selfw_eq, Stretch0.b1_eq]
  rfl

/-- The called function, from any contents `Y`: its result buffer ends at the maximum of its argument and zero. -/
theorem clamp_step (Y : Valuation τ sig (Elt Ideal)) :
    StableHlo.after hostOps1_1 Y (Proc.devRef .tc main_v48)
      = maximumf (F := Ideal) (s := S100000x64) (φ := .f32) (Y (Proc.devRef .tc main_v47)) (Cert.ReferenceIdeal.Read.val_main_call0_v0 (F := Ideal)) := by
  after_results_simp
  rfl

/-- The hidden layer at the second region's entry: the first convolution clamped below at zero. -/
theorem hidden_eq : W4 m ρ c (Proc.devRef .tc main_v48)
    = Cert.ReferenceIdeal.Read.val_main_v48 (F := Ideal) (feat m c) (edges m c) (wt1 m c) (bias1 m c) := by
  refine (clamp_step (W3 m ρ c)).trans ?_
  rw [conv1_eq]
  rfl

/-! Neither stretch between the regions, nor the first region, writes the edge data or the remaining arguments. -/

theorem src_entry1 : W4 m ρ c (Proc.devRef .tc main_v1)
    = Cert.ReferenceIdeal.Read.val_main_v1 (F := Ideal) (edges m c) := by
  show StableHlo.after hostOps1_1 (StableHlo.after hostOps1 (W2 m ρ c)) (Proc.devRef .tc main_v1) = _
  after_results_simp
  exact (W2_of_ne m ρ c main_v1 (by decide)).trans (Stretch0.src_eq m ρ c)

theorem dst_entry1 : W4 m ρ c (Proc.devRef .tc main_v3)
    = Cert.ReferenceIdeal.Read.val_main_v3 (F := Ideal) (edges m c) := by
  show StableHlo.after hostOps1_1 (StableHlo.after hostOps1 (W2 m ρ c)) (Proc.devRef .tc main_v3) = _
  after_results_simp
  exact (W2_of_ne m ρ c main_v3 (by decide)).trans (Stretch0.dst_eq m ρ c)

theorem norm_entry1 : W4 m ρ c (Proc.devRef .tc main_v25)
    = Cert.ReferenceIdeal.Read.val_main_v26 (F := Ideal) (edges m c) := by
  show StableHlo.after hostOps1_1 (StableHlo.after hostOps1 (W2 m ρ c)) (Proc.devRef .tc main_v25) = _
  after_results_simp
  exact (W2_of_ne m ρ c main_v25 (by decide)).trans (Stretch0.norm_eq m ρ c)

theorem selfw_entry1 : W4 m ρ c (Proc.devRef .tc main_v26)
    = Cert.ReferenceIdeal.Read.val_main_v40 (F := Ideal) (edges m c) := by
  show StableHlo.after hostOps1_1 (StableHlo.after hostOps1 (W2 m ρ c)) (Proc.devRef .tc main_v26) = _
  after_results_simp
  exact (W2_of_ne m ρ c main_v26 (by decide)).trans (Stretch0.selfw_eq m ρ c)

theorem w2_entry1 : W4 m ρ c (Proc.devRef .tc main_arg4) = wt2 m c := by
  show StableHlo.after hostOps1_1 (StableHlo.after hostOps1 (W2 m ρ c)) (Proc.devRef .tc main_arg4) = _
  after_results_simp
  exact (W2_of_ne m ρ c main_arg4 (by decide)).trans (Stretch0.w2_eq m ρ c)

theorem b2_entry1 : W4 m ρ c (Proc.devRef .tc main_arg5) = bias2 m c := by
  show StableHlo.after hostOps1_1 (StableHlo.after hostOps1 (W2 m ρ c)) (Proc.devRef .tc main_arg5) = _
  after_results_simp
  exact (W2_of_ne m ρ c main_arg5 (by decide)).trans (Stretch0.b2_eq m ρ c)

end Cert.KernelIdeal.Stretch1

end
-- ==== Proof.Stretch2.lean ====
/-
  From the second pallas_call's exit to the return.

  The second region leaves its output array at the host's product h1 · W2 of the hidden layer by the second weight
  matrix (the reference's second `dot_general`).  The host operations that follow are the second graph convolution
  — gather at the sources, weight, scatter-add at the destinations, self-loop term, bias — and the edge score: the
  rows of the result gathered at the two ends of every edge, multiplied entry by entry and summed over the 32
  features.  The kernel reuses the edge weights and self-loop weights it computed before the first region where the
  reference computes them a second time from the same edge list: the same values.  So the returned buffer holds the
  reference's result as a function of the six argument arrays.
-/
import proofs.«419534_j38208029065712_3_alg».proof.Proof.Gen.KernelIdeal.Frame
import proofs.«419534_j38208029065712_3_alg».proof.Proof.Gen.ReferenceIdeal.Read
import proofs.«419534_j38208029065712_3_alg».proof.Proof.SecondProduct
import proofs.«419534_j38208029065712_3_alg».proof.Proof.Stretch1
import Idealize.ShloMosaic.Lib.StableHlo.Run

set_option maxRecDepth 16384

noncomputable section

namespace Cert.KernelIdeal.Stretch2

open Cert.KernelIdeal Cert.KernelIdeal.Gen Idealize.ShloMosaic Idealize.ShloMosaic.TcCoe
open Idealize.SL.Sem Idealize.ShloMosaic.StableHlo
open Cert.KernelIdeal.Stretch1 (feat edges wt1 bias1 wt2 bias2)

variable (m : (ℓ : Loc nD τ sig) → Buf (Elt Ideal) ℓ) (ρ : Dev nD → PrngReg) (c : Dev nD)

/-- The second region's output array: the host's product of the hidden layer by the second weight matrix. -/
theorem product2_eq : W5 m ρ c (Proc.devRef .tc main_v49)
    = Cert.ReferenceIdeal.Read.val_main_v49 (F := Ideal) (feat m c) (edges m c) (wt1 m c) (bias1 m c) (wt2 m c) := by
  refine (W5_arr m ρ c 2).trans ((Cert.KernelIdeal.SecondProduct.array_eq (V4 m ρ) c).trans ?_)
  have hh : Cert.KernelIdeal.SecondProduct.harr (V4 m ρ) c
      = Cert.ReferenceIdeal.Read.val_main_v48 (F := Ideal) (feat m c) (edges m c) (wt1 m c) (bias1 m c) := Stretch1.hidden_eq m ρ c
  have hw : Cert.KernelIdeal.SecondProduct.warr (V4 m ρ) c = wt2 m c := Stretch1.w2_entry1 m ρ c
  unfold Cert.KernelIdeal.SecondProduct.product
  rw [hh, hw]
  rfl

/-- THE RESULT: the second convolution and the edge score over the second product, the edge data and the bias are the
    reference's, the edge weights and self-loop weights computed once being the ones the reference computes twice. -/
theorem result_eq : W6 m ρ c (Proc.devRef .tc main_v85)
    = Cert.ReferenceIdeal.Read.val_main_v108 (F := Ideal) (feat m c) (edges m c) (wt1 m c) (bias1 m c) (wt2 m c) (bias2 m c) := by
  show StableHlo.after hostOps2 (W5 m ρ c) (Proc.devRef .tc main_v85) = _
  after_results_simp
  rw [product2_eq, W5_of_ne m ρ c main_v1 (by decide), W5_of_ne m ρ c main_v3 (by decide),
    W5_of_ne m ρ c main_v25 (by decide), W5_of_ne m ρ c main_v26 (by decide), W5_of_ne m ρ c main_arg5 (by decide),
    Stretch1.src_entry1, Stretch1.dst_entry1, Stretch1.norm_entry1, Stretch1.selfw_entry1, Stretch1.b2_entry1]
  rfl

end Cert.KernelIdeal.Stretch2

end
-- ==== Proof.lean ====
/-
  A two-layer graph convolution with an edge score, kernel against reference, over the extended reals.

  Both programs compute, from node features x, an edge list, two weight matrices and two biases:
  h1 = relu (conv (x · W1) + b1), h2 = conv (h1 · W2) + b2, and for every edge the inner product of the rows of h2 at
  its two ends, where conv gathers rows at the source nodes, weights them by deg^(-1/2) at both ends, scatter-adds
  them at the destination nodes and adds the self-loop term h / deg.  The reference writes the two matrix products
  as `dot_general`s; the kernel computes each in a pallas_call, twenty row blocks of 5000 rows at a time, operands
  narrowed to bf16 — the identity on the extended reals — and accumulated from zero: the same sums
  (Proof/FirstProduct.lean, Proof/SecondProduct.lean over Proof/PlainProduct.lean).  Every other operation is the
  same host operation on both sides, the kernel computing the degree-derived weights once and the reference twice
  (Proof/Stretch0.lean, Stretch1.lean, Stretch2.lean read the kernel's buffers at each segment boundary against the
  reference's stages).  No algebraic law beyond reindexing a finite sum is used, so the precondition is never opened.
  The ideal pass rewrote nothing: `preserves` is trivial.  The frames are the generated ones; the kernel's run with
  its result named is Proof/KernelRun.lean.
-/
import proofs.«419534_j38208029065712_3_alg».proof.Defs
import proofs.«419534_j38208029065712_3_alg».proof.Proof.Gen.Kernel
import proofs.«419534_j38208029065712_3_alg».proof.Proof.Gen.Kernel.Skeleton
import proofs.«419534_j38208029065712_3_alg».proof.Proof.Gen.Kernel.Launch
import proofs.«419534_j38208029065712_3_alg».proof.Proof.Gen.Kernel.Points
import proofs.«419534_j38208029065712_3_alg».proof.Proof.Gen.Kernel.Frame
import proofs.«419534_j38208029065712_3_alg».proof.Proof.Gen.KernelIdeal
import proofs.«419534_j38208029065712_3_alg».proof.Proof.Gen.KernelIdeal.Skeleton
import proofs.«419534_j38208029065712_3_alg».proof.Proof.Gen.KernelIdeal.Launch
import proofs.«419534_j38208029065712_3_alg».proof.Proof.Gen.KernelIdeal.Points
import proofs.«419534_j38208029065712_3_alg».proof.Proof.Gen.KernelIdeal.Frame
import proofs.«419534_j38208029065712_3_alg».proof.Proof.Gen.ReferenceIdeal
import proofs.«419534_j38208029065712_3_alg».proof.Proof.Gen.ReferenceIdeal.Run
import proofs.«419534_j38208029065712_3_alg».proof.Proof.Gen.ReferenceIdeal.Read
import proofs.«419534_j38208029065712_3_alg».proof.Proof.Gen.Pre_finite_inputs
import proofs.«419534_j38208029065712_3_alg».proof.Proof.KernelRun
import proofs.«419534_j38208029065712_3_alg».proof.Proof.Stretch2
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves its arguments unchanged: its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the same result: the reference's result term
    of the arguments.  The kernel's run ends with its result buffer at the last segment boundary's contents, which
    is the reference's last stage of the kernel's arguments, and those are the reference's arguments. -/
theorem algebraic : Cert.algebraic_KernelIdeal_ReferenceIdeal := by
  intro m ρ m' ρ' _ hagree
  refine ⟨fun c => Cert.ReferenceIdeal.Value.res_main_v108 (F := Ideal) m' c, ?_,
    Cert.ReferenceIdeal.Value.run (F := Ideal) m' ρ'⟩
  refine (θ_run Cert.KernelIdeal.defs _ _).mono (fun r h c => ⟨(h c).1.trans ?_, (h c).2⟩)
    (Cert.KernelIdeal.ValueRun.run (F := Ideal) m ρ)
  show _ = Cert.ReferenceIdeal.Value.res_main_v108 (F := Ideal) m' c
  rw [Cert.KernelIdeal.Stretch2.result_eq, Cert.ReferenceIdeal.Read.val_main_v108_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
